-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4608x8x128 : Shape := ⟨4, ![8, 4608, 8, 128]⟩
abbrev S_ : Shape := ⟨0, ![]⟩

class Facts : Prop where
  bcast_S_S8x4608x8x128 : S_.BroadcastsInDim S8x4608x8x128 (![] : Fin 0 → Fin S8x4608x8x128.rank)
  reducesTo_S8x4608x8x128_S_d0_1_2_3 : S8x4608x8x128.ReducesTo [0, 1, 2, 3] S_
  h_S_ : 0 < S_.numel

variable [Facts]

def fn {F : FTy → Type} [FloatOps F] (main_arg0 : FVec F S8x4608x8x128 .f32) (main_arg1 : FVec F S8x4608x8x128 .f32) : IVec S_ 1 :=
  let main_v0 : FVec F S8x4608x8x128 .f32 := Host.absf main_arg0
  let main_cst : FVec F S_ .f32 := constant S_ .f32 0x7F800000#32
  let main_v1 : FVec F S8x4608x8x128 .f32 := broadcastInDim S8x4608x8x128 ![] bcast_S_S8x4608x8x128 main_cst
  let main_v2 : IVec S8x4608x8x128 1 := cmpf .olt main_v0 main_v1
  let main_c : IVec S_ 1 := constantI S_ 1 1#1
  let main_v3 : IVec S_ 1 := (fun x v => Host.reduce IntOp.andi x v reducesTo_S8x4608x8x128_S_d0_1_2_3 h_S_) main_v2 main_c
  let main_v4 : FVec F S8x4608x8x128 .f32 := Host.absf main_arg1
  let main_cst_0 : FVec F S_ .f32 := constant S_ .f32 0x7F800000#32
  let main_v5 : FVec F S8x4608x8x128 .f32 := broadcastInDim S8x4608x8x128 ![] bcast_S_S8x4608x8x128 main_cst_0
  let main_v6 : IVec S8x4608x8x128 1 := cmpf .olt main_v4 main_v5
  let main_c_1 : IVec S_ 1 := constantI S_ 1 1#1
  let main_v7 : IVec S_ 1 := (fun x v => Host.reduce IntOp.andi x v reducesTo_S8x4608x8x128_S_d0_1_2_3 h_S_) main_v6 main_c_1
  let main_v8 : IVec S_ 1 := andi main_v3 main_v7
  main_v8
-- ==== Kernel.lean ====
abbrev S8x4608x8x128 : Shape := ⟨4, ![8, 4608, 8, 128]⟩
abbrev S8x4096x8x128 : Shape := ⟨4, ![8, 4096, 8, 128]⟩
abbrev S8x128x8x128 : Shape := ⟨4, ![8, 128, 8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x4608x8x128, .f32⟩
  | .hbm, ⟨1, _⟩ => ⟨S8x4608x8x128, .f32⟩
  | .hbm, ⟨2, _⟩ => ⟨S8x4096x8x128, .f32⟩
  | .hbm, ⟨3, _⟩ => ⟨S8x4096x8x128, .f32⟩
  | .local _ .vmem, ⟨0, _⟩ => ⟨S8x128x8x128, .f32⟩
  | .local _ .vmem, ⟨1, _⟩ => ⟨S8x128x8x128, .f32⟩
  | .local _ .vmem, ⟨2, _⟩ => ⟨S8x128x8x128, .f32⟩
  | .local _ .vmem, ⟨3, _⟩ => ⟨S8x128x8x128, .f32⟩
  | .local _ .vmem, ⟨4, _⟩ => ⟨S8x128x8x128, .f32⟩
  | .local _ .vmem, ⟨5, _⟩ => ⟨S8x128x8x128, .f32⟩
  | .local _ .vmem, ⟨6, _⟩ => ⟨S8x128x8x128, .f32⟩
  | .local _ .vmem, ⟨7, _⟩ => ⟨S8x128x8x128, .f32⟩
  | _, _ => ⟨S8x4608x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 4 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x128x8x128_S8x128x8x128_0_0_0_0 : ∀ a, (![0, 0, 0, 0] : Fin 4 → Nat) a + S8x128x8x128.size a ≤ S8x128x8x128.size a
  h_S8x128x8x128 : 0 < S8x128x8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x128.size a ≤ S8x4608x8x128.size a
  hwx0_0 : ∀ i : grid0.Coords, EltTy.bits .f32 = 32 ∨ (Rect.block (s := S8x4608x8x128) S8x128x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x8x128.size a ≤ S8x4608x8x128.size a
  hwx0_1 : ∀ i : grid0.Coords, EltTy.bits .f32 = 32 ∨ (Rect.block (s := S8x4608x8x128) S8x128x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x8x128.size a ≤ S8x4096x8x128.size a
  hwx0_2 : ∀ i : grid0.Coords, EltTy.bits .f32 = 32 ∨ (Rect.block (s := S8x4096x8x128) S8x128x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x8x128.size a ≤ S8x4096x8x128.size a
  hwx0_3 : ∀ i : grid0.Coords, EltTy.bits .f32 = 32 ∨ (Rect.block (s := S8x4096x8x128) S8x128x8x128.size (cc0_transform_3 i) (hinb0_3 i)).WholeWords (EltTy.packing .f32)

variable [Facts₀]

abbrev win0_0 : Pipeline.Window sig grid0 :=
  Pipeline.Window.ofSpec (Memref.whole main_arg0) S8x128x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4608x8x128 : Shape := ⟨4, ![8, 4608, 8, 128]⟩
abbrev S4096 : Shape := ⟨1, ![4096]⟩
abbrev S_ : Shape := ⟨0, ![]⟩
abbrev S3584 : Shape := ⟨1, ![3584]⟩
abbrev S512 : Shape := ⟨1, ![512]⟩
abbrev S4096x1 : Shape := ⟨2, ![4096, 1]⟩
abbrev S8x4096x8x128 : Shape := ⟨4, ![8, 4096, 8, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x4608x8x128, .f32⟩
  | .hbm, ⟨1, _⟩ => ⟨S8x4608x8x128, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S3584, .i32⟩
  | .hbm, ⟨29, _⟩ => ⟨S_, .i32⟩
  | .hbm, ⟨30, _⟩ => ⟨S3584, .i32⟩
  | .hbm, ⟨31, _⟩ => ⟨S3584, .i32⟩
  | .hbm, ⟨32, _⟩ => ⟨S512, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S8x4096x8x128, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S8x4096x8x128, .f32⟩
  | _, _ => ⟨S8x4608x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S3584 : S_.BroadcastsInDim S3584 (![] : Fin 0 → Fin S3584.rank)
  concatenates_S3584_S512_S4096_d0 : Shape.Concatenates [S3584, S512] S4096 0
  bcast_S4096_S4096x1_0 : S4096.BroadcastsInDim S4096x1 (![0] : Fin 1 → Fin S4096x1.rank)
  gather_S4096_S4096x1_S4096_n_0_n_n_0_1_1_wf : GatherDims.WF S4096 S4096x1 S4096 [] [0] [] [0] [] 1 ![1]
  gather_S8x4608x8x128_S4096x1_S8x4096x8x128_023_1_n_n_1_1_818128_wf : GatherDims.WF S8x4608x8x128 S4096x1 S8x4096x8x128 [0, 2, 3] [1] [] [1] [] 1 ![8, 1, 8, 128]

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S8x4608x8x128_S4096x1_S8x4096x8x128_023_1_n_n_1_1_818128 : GatherDims S8x4608x8x128 S4096x1 S8x4096x8x128 where
  offsetDims := [0, 2, 3]
  collapsedSliceDims := [1]
  operandBatchingDims := []
  startIndicesBatchingDims := []
  startIndexMap := [1]
  indexVectorDim := 1
  sliceSizes := ![8, 1, 8, 128]
  wf := gather_S8x4608x8x128_S4096x1_S8x4096x8x128_023_1_n_n_1_1_818128_wf

class Facts : Prop extends Facts₀ where

variable [Facts]
-- ==== Proof.Window.lean ====
/-
  The sliding-window cache as ONE function of the token sequence.

  A ring buffer of 4096 slots that has been fed 4608 tokens holds, read in chronological order, exactly the last
  4096 of them: entry `r` of the cache is token `r + 512` of the sequence, on every batch row, head and lane.
  Both programs of this certificate compute that function; this module states it once, over literal shapes, so
  that the two sides can be set against the same term.
-/
import Idealize.ShloMosaic.Lib.ValueIdx

namespace Cert.Window

open Idealize.ShloMosaic

/-- The token sequence: batch 8, 4608 tokens, 8 heads, 128 lanes. -/
abbrev Seq : Shape := ⟨4, ![8, 4608, 8, 128]⟩
/-- The cache: the same, 4096 tokens long. -/
abbrev Cache : Shape := ⟨4, ![8, 4096, 8, 128]⟩

/-- Where entry `i` of the cache lies in the sequence: 512 tokens later, every other coordinate kept. -/
def later (i : Cache.Idx) : Seq.Idx := fun a =>
  match a with
  | ⟨0, _⟩ => ⟨(i 0).val, (i 0).isLt⟩
  | ⟨1, _⟩ => ⟨(i 1).val + 512, by have h : (i 1).val < 4096 := (i 1).isLt; show (i 1).val + 512 < 4608; omega⟩
  | ⟨2, _⟩ => ⟨(i 2).val, (i 2).isLt⟩
  | ⟨3, _⟩ => ⟨(i 3).val, (i 3).isLt⟩

/-- The last 4096 tokens of a sequence, in order. -/
def lastTokens {α : Type} (x : Seq.Idx → α) : Cache.Idx → α := fun i => x (later i)

theorem lastTokens_apply {α : Type} (x : Seq.Idx → α) (i : Cache.Idx) : lastTokens x i = x (later i) := rfl

theorem later_val0 (i : Cache.Idx) : (later i 0).val = (i 0).val := rfl
theorem later_val1 (i : Cache.Idx) : (later i 1).val = (i 1).val + 512 := rfl
theorem later_val2 (i : Cache.Idx) : (later i 2).val = (i 2).val := rfl
theorem later_val3 (i : Cache.Idx) : (later i 3).val = (i 3).val := rfl

end Cert.Window
-- ==== Proof.KernelValue.lean ====
/-
  What the copy kernel leaves in its two output arrays, as whole-array functions of the arguments.

  The grid has 32 points. At point `t` each input window stages tokens `128 (t + 4) … 128 (t + 4) + 127` of its
  sequence (block index `t + 4` on the token axis, all batch rows, heads and lanes), the body copies the staged
  block unchanged, and each output window writes it back as tokens `128 t … 128 t + 127` of its cache. So entry
  `r` of a cache is token `r + 512` of the sequence: point `r / 128` wrote it, from the block four further on.
  The 32 output blocks tile the cache, hence the final array IS `lastTokens` of the argument.
-/
import proofs.«130519_j45861660787372_1_alg».proof.Proof.Gen.KernelIdeal.Value
import proofs.«130519_j45861660787372_1_alg».proof.Proof.Window

noncomputable section

namespace Cert.KernelIdeal.Copied

open Cert.KernelIdeal Cert.KernelIdeal.Gen Idealize.ShloMosaic Idealize.ShloMosaic.TcCoe Idealize.SL.Sem
open Idealize.ShloMosaic.Pipeline (Dat)
open Cert.Window

variable {F : FTy → Type} [FloatOps F]
variable (m : (ℓ : Loc nD τ sig) → Buf (Elt F) ℓ) (ρ : Dev nD → PrngReg)

/-- The body's one store per output covers the whole staging block: its rectangle starts at the origin. -/
theorem origin : (![0, 0, 0, 0] : Fin 4 → Nat) = fun _ => 0 := funext fun a => by fin_cases a <;> rfl

/-- The printed index maps over the 32 grid points: both inputs stage token block `t + 4`, both outputs write
    token block `t`; on the batch, head and lane axes every window is at block 0. -/
theorem index_maps : ∀ t : Fin cfg0.N,
    (win0_0.index t (0 : Fin 4) = 0 ∧ win0_0.index t (1 : Fin 4) = t.val + 4 ∧ win0_0.index t (2 : Fin 4) = 0 ∧ win0_0.index t (3 : Fin 4) = 0)
    ∧ (win0_1.index t (0 : Fin 4) = 0 ∧ win0_1.index t (1 : Fin 4) = t.val + 4 ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0) :=
  (by decide +kernel : ∀ t : Fin grid0.N, _)

/-! ## The key cache (output window 2, from input window 0) -/

/-- What point `t` writes back to the key cache is block `t` of the sequence's last 4096 tokens. -/
theorem flushedK (c : Dev nD) (t : Fin cfg0.N) :
    (dats m 0 c).flushed 2 t = ((cfg0.win 2).blk t).view.read (Elt F) (lastTokens (V m c main_arg0)) := by
  show (cfg0.win 2).cut (grid0.coords t) ((dats m 0 c).after 2 t) = _
  rw [after0_2]
  unfold out0_2
  rw [View.canon_unit_zero origin]
  simp only [View.ld_unit_zero (S := S8x128x8x128) origin]
  obtain ⟨⟨a0, a1, a2, a3⟩, -, ⟨b0, b1, b2, b3⟩, -⟩ := index_maps t
  funext j
  show V m c main_arg0 (((cfg0.win 0).blk t).view.emb j) = V m c main_arg0 (later (((cfg0.win 2).blk t).view.emb j))
  congr 1
  funext a; apply Fin.ext
  match a with
  | ⟨0, _⟩ => show win0_0.index t (0 : Fin 4) * 8 + 1 * (j 0).val = win0_2.index t (0 : Fin 4) * 8 + 1 * (j 0).val; omega
  | ⟨1, _⟩ => show win0_0.index t (1 : Fin 4) * 128 + 1 * (j 1).val = win0_2.index t (1 : Fin 4) * 128 + 1 * (j 1).val + 512; omega
  | ⟨2, _⟩ => show win0_0.index t (2 : Fin 4) * 8 + 1 * (j 2).val = win0_2.index t (2 : Fin 4) * 8 + 1 * (j 2).val; omega
  | ⟨3, _⟩ => show win0_0.index t (3 : Fin 4) * 128 + 1 * (j 3).val = win0_2.index t (3 : Fin 4) * 128 + 1 * (j 3).val; omega

/-- An entry of the key cache is in point `t`'s block iff each coordinate is in the block's range on its axis. -/
theorem mem_blockK (t : Fin cfg0.N) (i : S8x4096x8x128.Idx) :
    i ∈ ((cfg0.win 2).blk t).view.set ↔ ∀ a : Fin 4, win0_2.index t a * S8x128x8x128.size a ≤ (i a).val ∧ (i a).val < win0_2.index t a * S8x128x8x128.size a + S8x128x8x128.size a := by
  show i ∈ ((View.whole main_v0_0).slice (win0_2.rect t)).set ↔ _
  rw [View.set_slice_whole, Rect.mem_set_unit]
  exact Iff.rfl

/-- Every entry of the key cache is written by some point: token `r` by point `r / 128`. -/
theorem coveredK (i : S8x4096x8x128.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 8 := (i 2).isLt
  have h3 : (i 3).val < 128 := (i 3).isLt
  have hN : (i 1).val / 128 < cfg0.N := by show _ < grid0.N; rw [N_0]; omega
  refine ⟨⟨(i 1).val / 128, hN⟩, flush0_2 _, ?_⟩
  rw [mem_blockK]
  obtain ⟨-, -, ⟨b0, b1, b2, b3⟩, -⟩ := index_maps ⟨(i 1).val / 128, hN⟩
  have b1' : win0_2.index ⟨(i 1).val / 128, hN⟩ (1 : Fin 4) = (i 1).val / 128 := b1
  intro a
  match a with
  | ⟨0, _⟩ => show win0_2.index _ (0 : Fin 4) * 8 ≤ (i 0).val ∧ (i 0).val < win0_2.index _ (0 : Fin 4) * 8 + 8; omega
  | ⟨1, _⟩ => show win0_2.index _ (1 : Fin 4) * 128 ≤ (i 1).val ∧ (i 1).val < win0_2.index _ (1 : Fin 4) * 128 + 128; omega
  | ⟨2, _⟩ => show win0_2.index _ (2 : Fin 4) * 8 ≤ (i 2).val ∧ (i 2).val < win0_2.index _ (2 : Fin 4) * 8 + 8; omega
  | ⟨3, _⟩ => show win0_2.index _ (3 : Fin 4) * 128 ≤ (i 3).val ∧ (i 3).val < win0_2.index _ (3 : Fin 4) * 128 + 128; omega

/-- The key cache after the run: the last 4096 tokens of the key sequence as launched. -/
theorem finalK (c : Dev nD) : (dats m 0 c).arrAt 2 cfg0.N = lastTokens (m ((c : Thread nD τ).loc main_arg0)) :=
  ((dats m 0 c).arrAt_eq_of_cover 2 (lastTokens (V m c main_arg0)) (fun t _ => flushedK m c t) coveredK).trans
    (congrArg lastTokens (V_main_arg0 m c))

/-! ## The value cache (output window 3, from input window 1) -/

/-- What point `t` writes back to the value cache is block `t` of the sequence's last 4096 tokens. -/
theorem flushedV (c : Dev nD) (t : Fin cfg0.N) :
    (dats m 0 c).flushed 3 t = ((cfg0.win 3).blk t).view.read (Elt F) (lastTokens (V m c main_arg1)) := by
  show (cfg0.win 3).cut (grid0.coords t) ((dats m 0 c).after 3 t) = _
  rw [after0_3]
  unfold out0_3
  rw [View.canon_unit_zero origin]
  simp only [View.ld_unit_zero (S := S8x128x8x128) origin]
  obtain ⟨-, ⟨a0, a1, a2, a3⟩, -, ⟨b0, b1, b2, b3⟩⟩ := index_maps t
  funext j
  show V m c main_arg1 (((cfg0.win 1).blk t).view.emb j) = V m c main_arg1 (later (((cfg0.win 3).blk t).view.emb j))
  congr 1
  funext a; apply Fin.ext
  match a with
  | ⟨0, _⟩ => show win0_1.index t (0 : Fin 4) * 8 + 1 * (j 0).val = win0_3.index t (0 : Fin 4) * 8 + 1 * (j 0).val; omega
  | ⟨1, _⟩ => show win0_1.index t (1 : Fin 4) * 128 + 1 * (j 1).val = win0_3.index t (1 : Fin 4) * 128 + 1 * (j 1).val + 512; omega
  | ⟨2, _⟩ => show win0_1.index t (2 : Fin 4) * 8 + 1 * (j 2).val = win0_3.index t (2 : Fin 4) * 8 + 1 * (j 2).val; omega
  | ⟨3, _⟩ => show win0_1.index t (3 : Fin 4) * 128 + 1 * (j 3).val = win0_3.index t (3 : Fin 4) * 128 + 1 * (j 3).val; omega

/-- An entry of the value cache is in point `t`'s block iff each coordinate is in the block's range on its axis. -/
theorem mem_blockV (t : Fin cfg0.N) (i : S8x4096x8x128.Idx) :
    i ∈ ((cfg0.win 3).blk t).view.set ↔ ∀ a : Fin 4, win0_3.index t a * S8x128x8x128.size a ≤ (i a).val ∧ (i a).val < win0_3.index t a * S8x128x8x128.size a + S8x128x8x128.size a := by
  show i ∈ ((View.whole main_v0_1).slice (win0_3.rect t)).set ↔ _
  rw [View.set_slice_whole, Rect.mem_set_unit]
  exact Iff.rfl

/-- Every entry of the value cache is written by some point: token `r` by point `r / 128`. -/
theorem coveredV (i : S8x4096x8x128.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 8 := (i 2).isLt
  have h3 : (i 3).val < 128 := (i 3).isLt
  have hN : (i 1).val / 128 < cfg0.N := by show _ < grid0.N; rw [N_0]; omega
  refine ⟨⟨(i 1).val / 128, hN⟩, flush0_3 _, ?_⟩
  rw [mem_blockV]
  obtain ⟨-, -, -, ⟨b0, b1, b2, b3⟩⟩ := index_maps ⟨(i 1).val / 128, hN⟩
  have b1' : win0_3.index ⟨(i 1).val / 128, hN⟩ (1 : Fin 4) = (i 1).val / 128 := b1
  intro a
  match a with
  | ⟨0, _⟩ => show win0_3.index _ (0 : Fin 4) * 8 ≤ (i 0).val ∧ (i 0).val < win0_3.index _ (0 : Fin 4) * 8 + 8; omega
  | ⟨1, _⟩ => show win0_3.index _ (1 : Fin 4) * 128 ≤ (i 1).val ∧ (i 1).val < win0_3.index _ (1 : Fin 4) * 128 + 128; omega
  | ⟨2, _⟩ => show win0_3.index _ (2 : Fin 4) * 8 ≤ (i 2).val ∧ (i 2).val < win0_3.index _ (2 : Fin 4) * 8 + 8; omega
  | ⟨3, _⟩ => show win0_3.index _ (3 : Fin 4) * 128 ≤ (i 3).val ∧ (i 3).val < win0_3.index _ (3 : Fin 4) * 128 + 128; omega

/-- The value cache after the run: the last 4096 tokens of the value sequence as launched. -/
theorem finalV (c : Dev nD) : (dats m 0 c).arrAt 3 cfg0.N = lastTokens (m ((c : Thread nD τ).loc main_arg1)) :=
  ((dats m 0 c).arrAt_eq_of_cover 3 (lastTokens (V m c main_arg1)) (fun t _ => flushedV m c t) coveredV).trans
    (congrArg lastTokens (V_main_arg1 m c))

/-! ## The run, read -/

/-- Every weakly fair execution of the kernel's program terminates with both caches at the last 4096 tokens of
    their sequences and the sequences unchanged. -/
theorem run : θ_run defs (onTc (τ := τ) (main (F := F))) ⟨m, fun _ => 0, ρ⟩ fun r => ∀ c : Dev nD,
      r.2.mem ((c : Thread nD τ).loc main_v0_0) = lastTokens (m ((c : Thread nD τ).loc main_arg0))
      ∧ r.2.mem ((c : Thread nD τ).loc main_v0_1) = lastTokens (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalK m c), (h c).2.1.trans (finalV m c), (h c).2.2.1, (h c).2.2.2⟩)
    (Cert.KernelIdeal.Value.run_blocks m ρ)

end Cert.KernelIdeal.Copied

end
-- ==== Proof.IndexTable.lean ====
/-
  The reference's index computation, stage by stage.

  The reference writes token `i` of a sequence of 4608 into slot `i mod 4096` of a ring, later writes winning, and
  then reads the ring in chronological order. It does both with index arithmetic on 32-bit words:
    * `lastWriter[s] = s + 4096 · ((4607 − s) ÷ 4096)`, the last token written to slot `s` (the quotient is jnp's
      floor division, spelt out with signs and a remainder; here both operands are positive);
    * `order = [512, …, 4095, 0, …, 511]`, the slots oldest first (a concatenation of two ranges);
    * `gatherIdx = lastWriter[order]`, a take with jnp's wrap of negative positions;
    * the caches are the sequences' rows at `gatherIdx`, again with the wrap.
  This module names each stage as the reference computes it. What the words ARE — position `j` of the final index
  column holds `j + 512` — is proved in the module that imports this one.
-/
import proofs.«130519_j45861660787372_1_alg».proof.Proof.Gen.ReferenceIdeal

noncomputable section

namespace Cert.ReferenceIdeal.Index

open Cert.ReferenceIdeal Cert.ReferenceIdeal.Gen Idealize.ShloMosaic

/-- A word repeated over the 4096 slots. -/
abbrev splat (n : BitVec 32) : IVec S4096 32 := broadcastInDim S4096 ![] bcast_S_S4096 (constantI S_ 32 n)

/-- The ring's length as the divisor the floor division broadcasts (a scalar passed through a conversion to its own type). -/
abbrev ringLen : IVec S4096 32 := broadcastInDim S4096 ![] bcast_S_S4096 (id (constantI S_ 32 4096#32))

/-- Slot `s` holds `s`. -/
def slot : IVec S4096 32 := iotaInDim S4096 32 0

/-- How far slot `s` is from the last token: `4607 − s`. -/
def ahead : IVec S4096 32 := subi (splat 4607#32) slot

/-- The truncated quotient `(4607 − s) ÷ 4096`. -/
def quot : IVec S4096 32 := Host.divsi ahead ringLen

/-- Whether dividend and divisor differ in sign (floor division rounds down only then). -/
def signsDiffer : IVec S4096 1 :=
  cmpi .ne (signi ahead) (broadcastInDim S4096 ![] bcast_S_S4096 (signi (id (constantI S_ 32 4096#32))))

/-- Whether the division leaves a remainder. -/
def inexact : IVec S4096 1 := cmpi .ne (Host.remsi ahead ringLen) (splat 0#32)

/-- jnp's floor division: the truncated quotient, one less where the signs differ and the division is inexact. -/
def laps : IVec S4096 32 := select (andi signsDiffer inexact) (subi quot (splat 1#32)) quot

/-- The last token written to each slot. -/
def lastWriter : IVec S4096 32 := addi slot (muli (splat 4096#32) laps)

/-- The slots oldest first: `512 … 4095` then `0 … 511`. -/
def order : IVec S4096 32 :=
  concatenate S4096 0
    [⟨S3584, addi (broadcastInDim S3584 ![] bcast_S_S3584 (constantI S_ 32 512#32)) (iotaInDim S3584 32 0)⟩,
     ⟨S512, iotaInDim S512 32 0⟩]
    concatenates_S3584_S512_S4096_d0

/-- jnp's wrap of a negative position into a table of `n` entries. -/
def wrapped (x : IVec S4096 32) (n : BitVec 32) : IVec S4096 32 :=
  select (cmpi .slt x (splat 0#32)) (addi x (splat n)) x

/-- A vector of positions as the one-column table a gather reads its start indices from. -/
def column (x : IVec S4096 32) : IVec S4096x1 32 := broadcastInDim S4096x1 ![0] bcast_S4096_S4096x1_0 x

/-- The token each cache entry comes from: the last writer of the slot that is its turn. -/
def gatherIdx : IVec S4096 32 :=
  Host.gather gather_S4096_S4096x1_S4096_n_0_n_n_0_1_1 lastWriter (column (wrapped order 4096#32))

/-- The start-index column of the two row gathers. -/
def tokenIdx : IVec S4096x1 32 := column (wrapped gatherIdx 4608#32)

end Cert.ReferenceIdeal.Index

end
-- ==== Proof.RefRun.lean ====
/-
  The reference program read as a straight line of host operations, and what its two results hold after it.

  The printed @main calls jnp's floor division as a function; written out at the call it is seventeen operations
  (the divisor's conversion and broadcasts, quotient, signs, remainder, the two tests, the correction and the
  select that `where` makes), so the whole program is fifty-nine operations in a row. Run in order from the launch
  contents, each result buffer ends at the composed term of the arguments; read through the stages named in
  `Index`, the key cache is the key sequence gathered at the index column `tokenIdx`, the value cache likewise.
-/
import proofs.«130519_j45861660787372_1_alg».proof.Proof.IndexTable
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo
open Cert.ReferenceIdeal.Index

variable {F : FTy → Type} [FloatOps F]

/-- @main's operations in order, the floor division written out at its call. -/
abbrev ops : List (HloOp τ sig (Elt F)) :=
  [ nullary main_v0 (iotaInDim S4096 32 0),
    nullary main_c (constantI S_ 32 4607#32),
    unary main_c main_v1 (broadcastInDim S4096 ![] bcast_S_S4096),
    binary main_v1 main_v0 main_v2 subi,
    nullary main_c_0 (constantI S_ 32 4096#32),
    TRef.unary (.of main_c_0) main_call0.v0 id,
    TRef.unary main_call0.v0 main_call0.v1 (broadcastInDim S4096 ![] bcast_S_S4096),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v2) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_1 (constantI S_ 32 4096#32),
    unary main_c_1 main_v4 (broadcastInDim S4096 ![] bcast_S_S4096),
    binary main_v4 main_v3 main_v5 muli,
    binary main_v0 main_v5 main_v6 addi,
    nullary main_v7 (iotaInDim S3584 32 0),
    nullary main_c_2 (constantI S_ 32 512#32),
    unary main_c_2 main_v8 (broadcastInDim S3584 ![] bcast_S_S3584),
    binary main_v8 main_v7 main_v9 addi,
    nullary main_v10 (iotaInDim S512 32 0),
    binary main_v9 main_v10 main_v11 (fun a b => concatenate S4096 0 [⟨S3584, a⟩, ⟨S512, b⟩] concatenates_S3584_S512_S4096_d0),
    nullary main_c_3 (constantI S_ 32 0#32),
    unary main_c_3 main_v12 (broadcastInDim S4096 ![] bcast_S_S4096),
    binary main_v11 main_v12 main_v13 (cmpi .slt),
    nullary main_c_4 (constantI S_ 32 4096#32),
    unary main_c_4 main_v14 (broadcastInDim S4096 ![] bcast_S_S4096),
    binary main_v11 main_v14 main_v15 addi,
    ternary main_v13 main_v15 main_v11 main_v16 select,
    unary main_v16 main_v17 (broadcastInDim S4096x1 ![0] bcast_S4096_S4096x1_0),
    binary main_v6 main_v17 main_v18 (fun x i => Host.gather gather_S4096_S4096x1_S4096_n_0_n_n_0_1_1 x i),
    nullary main_c_5 (constantI S_ 32 0#32),
    unary main_c_5 main_v19 (broadcastInDim S4096 ![] bcast_S_S4096),
    binary main_v18 main_v19 main_v20 (cmpi .slt),
    nullary main_c_6 (constantI S_ 32 4608#32),
    unary main_c_6 main_v21 (broadcastInDim S4096 ![] bcast_S_S4096),
    binary main_v18 main_v21 main_v22 addi,
    ternary main_v20 main_v22 main_v18 main_v23 select,
    unary main_v23 main_v24 (broadcastInDim S4096x1 ![0] bcast_S4096_S4096x1_0),
    binary main_arg0 main_v24 main_v25 (fun x i => Host.gather gather_S8x4608x8x128_S4096x1_S8x4096x8x128_023_1_n_n_1_1_818128 x i),
    nullary main_c_7 (constantI S_ 32 0#32),
    unary main_c_7 main_v26 (broadcastInDim S4096 ![] bcast_S_S4096),
    binary main_v18 main_v26 main_v27 (cmpi .slt),
    nullary main_c_8 (constantI S_ 32 4608#32),
    unary main_c_8 main_v28 (broadcastInDim S4096 ![] bcast_S_S4096),
    binary main_v18 main_v28 main_v29 addi,
    ternary main_v27 main_v29 main_v18 main_v30 select,
    unary main_v30 main_v31 (broadcastInDim S4096x1 ![0] bcast_S4096_S4096x1_0),
    binary main_arg1 main_v31 main_v32 (fun x i => Host.gather gather_S8x4608x8x128_S4096x1_S8x4096x8x128_023_1_n_n_1_1_818128 x i) ]

-- fifty-nine binds re-associated under one chain
set_option maxRecDepth 2048 in
/-- @main is that straight line: the two functions unfolded at their calls, sequencing re-associated. -/
theorem main_eq (c : Dev nD) : main (F := F) c = seq ops := by
  simp only [main, fn_floor_divide.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., binary_bufs_sub ..,
    nullary_bufs_sub .., nullary_bufs_sub .., unary_bufs_sub .., binary_bufs_sub .., nullary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩

/-- Every weakly fair execution of @main terminates, and every buffer ends at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The row gather both results are made by. -/
abbrev rowGather (x : (⟨S8x4608x8x128, .f32⟩ : BufTy).Contents (Elt F)) (i : IVec S4096x1 32) : (⟨S8x4096x8x128, .f32⟩ : BufTy).Contents (Elt F) :=
  Host.gather gather_S8x4608x8x128_S4096x1_S8x4096x8x128_023_1_n_n_1_1_818128 x i

attribute [local irreducible] Host.gather concatenate broadcastInDim select cmpi addi subi muli andi signi Host.divsi Host.remsi iotaInDim constantI in
set_option maxRecDepth 8192 in
set_option maxHeartbeats 1000000 in
/-- After the line the key cache is the key sequence's rows at the index column. -/
theorem key_eq (V : Valuation τ sig (Elt F)) :
    after ops V (main_v25 : DevRef τ sig) = rowGather (V (main_arg0 : DevRef τ sig)) tokenIdx := by
  after_results_simp
  rfl

attribute [local irreducible] Host.gather concatenate broadcastInDim select cmpi addi subi muli andi signi Host.divsi Host.remsi iotaInDim constantI in
set_option maxRecDepth 8192 in
set_option maxHeartbeats 1000000 in
/-- After the line the value cache is the value sequence's rows at the same index column. -/
theorem value_eq (V : Valuation τ sig (Elt F)) :
    after ops V (main_v32 : DevRef τ sig) = rowGather (V (main_arg1 : DevRef τ sig)) tokenIdx := by
  after_results_simp
  rfl

/-- No operation writes an argument. -/
theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-- The run, read at the results and the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = rowGather (m ((c.tc : Thread nD τ).loc main_arg0)) tokenIdx
      ∧ r.2.mem ((c.tc : Thread nD τ).loc main_v32) = rowGather (m ((c.tc : Thread nD τ).loc main_arg1)) tokenIdx
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (key_eq _), (h c main_v32).trans (value_eq _),
      (h c main_arg0).trans (arg0_eq _), (h c main_arg1).trans (arg1_eq _)⟩)
    (run_all m ρ)

end Cert.ReferenceIdeal.Straight

end
-- ==== Proof.IndexWords.lean ====
/-
  What the reference's index words are.

  Every word of the index computation is a small non-negative number, so 32-bit arithmetic agrees with arithmetic
  on the naturals throughout: `4607 − s` lies in `[512, 4607]`, its quotient by 4096 is `1` for the 512 slots
  the sequence wrapped onto and `0` for the rest, both operands of the floor division are positive so the
  correction for differing signs never applies, no position is negative so jnp's wrap never applies, and no
  position reaches the end of its table so the gather's clamp never applies. Reading the stages one after the
  other at position `p`:
    lastWriter[s] = s + 4096 · ((4607 − s) / 4096),   order[p] = p + 512 (p < 3584), p − 3584 (otherwise),
    gatherIdx[p] = lastWriter[order[p]] = p + 512,
  the last by cases: for `p < 3584` the slot `p + 512 ≥ 512` was written once, by token `p + 512`; otherwise the slot
  `p − 3584 < 512` was written twice, last by token `p − 3584 + 4096 = p + 512`.
-/
import proofs.«130519_j45861660787372_1_alg».proof.Proof.IndexTable
import Idealize.ShloMosaic.Lib.StableHlo.Predicate
import Idealize.ShloMosaic.Lib.Pipeline.Value

noncomputable section

namespace Cert.ReferenceIdeal.Index

open Cert.ReferenceIdeal Cert.ReferenceIdeal.Gen Idealize.ShloMosaic Idealize.ShloMosaic.StableHlo.Predicate

/-! ## Words -/

/-- A small word is not negative. -/
theorem msb_ofNat_small (a : ℕ) (ha : a < 2 ^ 31) : (BitVec.ofNat 32 a).msb = false :=
  BitVec.msb_eq_false_iff_two_mul_lt.mpr (by simp only [BitVec.toNat_ofNat]; omega)

/-- Subtraction of small words that does not go below zero. -/
theorem sub_ofNat (a b : ℕ) (hb : b ≤ a) (ha : a < 2 ^ 32) :
    BitVec.ofNat 32 a - BitVec.ofNat 32 b = BitVec.ofNat 32 (a - b) := by
  apply BitVec.eq_of_toNat_eq
  simp only [BitVec.toNat_sub, BitVec.toNat_ofNat]
  omega

/-- Addition of words. -/
theorem add_ofNat (a b : ℕ) : BitVec.ofNat 32 a + BitVec.ofNat 32 b = BitVec.ofNat 32 (a + b) := by
  apply BitVec.eq_of_toNat_eq
  simp only [BitVec.toNat_add, BitVec.toNat_ofNat]
  omega

/-- A small word times 4096. -/
theorem mul_4096_ofNat (q : ℕ) (hq : q < 2 ^ 16) : 4096#32 * BitVec.ofNat 32 q = BitVec.ofNat 32 (4096 * q) := by
  apply BitVec.eq_of_toNat_eq
  simp only [BitVec.toNat_mul, BitVec.toNat_ofNat]
  omega

/-- Signed division of a small non-negative word by 4096 is the quotient of the naturals, on any unit. -/
theorem divsi_4096 (u : ArithUnit) (a : ℕ) (ha : a < 2 ^ 31) :
    IntOp.divsi u (BitVec.ofNat 32 a) 4096#32 = BitVec.ofNat 32 (a / 4096) := by
  have hcorner : ¬ IntOp.SDivCorner (BitVec.ofNat 32 a) 4096#32 := by
    intro hc; rcases hc with hc | ⟨_, hc⟩ <;> exact absurd hc (by decide)
  have hm : (BitVec.ofNat 32 a).msb = false := msb_ofNat_small a ha
  apply BitVec.eq_of_toNat_eq
  simp only [IntOp.divsi, if_neg hcorner, BitVec.sdiv_eq, hm, show (4096#32 : BitVec 32).msb = false from by decide, BitVec.udiv_eq,
    BitVec.toNat_udiv, BitVec.toNat_ofNat]
  rw [Nat.mod_eq_of_lt (show a < 2 ^ 32 by omega), Nat.mod_eq_of_lt (show 4096 < 2 ^ 32 by omega),
    Nat.mod_eq_of_lt (show a / 4096 < 2 ^ 32 by omega)]

/-- The sign of a small positive word is one. -/
theorem sign_pos (a : ℕ) (h0 : 0 < a) (ha : a < 2 ^ 31) :
    (if BitVec.ofNat 32 a = 0 then (0 : BitVec 32) else if (BitVec.ofNat 32 a).msb then -1 else 1) = 1 := by
  have hne : BitVec.ofNat 32 a ≠ 0 := by
    intro h
    have h' : (BitVec.ofNat 32 a).toNat = 0 := by rw [h]; rfl
    rw [BitVec.toNat_ofNat] at h'
    omega
  rw [if_neg hne, msb_ofNat_small a ha]
  rfl

/-- A small non-negative word is not below zero. -/
theorem not_slt_zero (x : BitVec 32) (hx : x.toNat < 2 ^ 31) : IntOp.cmpi .slt x 0#32 = 0#1 := by
  have h : IntOp.cmpi .slt x 0#32 ≠ 1#1 := fun hc => by
    have := (slt_iff_toNat hx (by decide)).mp hc
    simp at this
  rcases BitVec.eq_zero_or_eq_one (IntOp.cmpi .slt x 0#32) with h0 | h1
  · exact h0
  · exact absurd h1 h

/-! ## The stages at a position -/

theorem splat_apply (n : BitVec 32) (i : S4096.Idx) : splat n i = n :=
  bcast_scalar bcast_S_S4096 (by decide) _ i

theorem ringLen_apply (i : S4096.Idx) : ringLen i = 4096#32 :=
  bcast_scalar bcast_S_S4096 (by decide) _ i

theorem slot_apply (p : Fin 4096) : slot (Shape.Idx.ofFin p) = BitVec.ofNat 32 p.val := rfl

theorem ahead_apply (p : Fin 4096) : ahead (Shape.Idx.ofFin p) = BitVec.ofNat 32 (4607 - p.val) := by
  show IntOp.subi (splat 4607#32 _) (slot _) = _
  rw [splat_apply, slot_apply]
  have hp := p.isLt
  exact sub_ofNat 4607 p.val (by omega) (by omega)

theorem quot_apply (p : Fin 4096) : quot (Shape.Idx.ofFin p) = BitVec.ofNat 32 ((4607 - p.val) / 4096) := by
  show IntOp.divsi .host (ahead _) (ringLen _) = _
  rw [ahead_apply, ringLen_apply]
  exact divsi_4096 _ _ (by omega)

/-- Dividend and divisor are both positive: their signs agree. -/
theorem signsDiffer_apply (p : Fin 4096) : signsDiffer (Shape.Idx.ofFin p) = 0#1 := by
  have hp := p.isLt
  have h1 : signi ahead (Shape.Idx.ofFin p) = 1 := by
    show (if ahead (Shape.Idx.ofFin p) = 0 then (0 : BitVec 32) else if (ahead (Shape.Idx.ofFin p)).msb then -1 else 1) = 1
    rw [ahead_apply]
    exact sign_pos _ (by omega) (by omega)
  have h2 : broadcastInDim S4096 ![] bcast_S_S4096 (signi (id (constantI S_ 32 4096#32))) (Shape.Idx.ofFin p) = 1 := by
    rw [bcast_scalar bcast_S_S4096 (by decide)]
    show (if (4096#32 : BitVec 32) = 0 then (0 : BitVec 32) else if (4096#32 : BitVec 32).msb then -1 else 1) = 1
    decide
  unfold signsDiffer
  show IntOp.cmpi .ne (signi ahead (Shape.Idx.ofFin p))
    (broadcastInDim S4096 ![] bcast_S_S4096 (signi (id (constantI S_ 32 4096#32))) (Shape.Idx.ofFin p)) = 0#1
  rw [h1, h2]
  decide

/-- So the floor division is the truncated one. -/
theorem laps_apply (p : Fin 4096) : laps (Shape.Idx.ofFin p) = BitVec.ofNat 32 ((4607 - p.val) / 4096) := by
  show Scalar.select (IntOp.andi (signsDiffer _) (inexact _)) (subi quot (splat 1#32) _) (quot _) = _
  rw [signsDiffer_apply, quot_apply]
  show (if (0#1 &&& inexact (Shape.Idx.ofFin p)) = 1 then _ else _) = _
  rw [BitVec.zero_and, if_neg (by decide)]

theorem lastWriter_apply (p : Fin 4096) :
    lastWriter (Shape.Idx.ofFin p) = BitVec.ofNat 32 (p.val + 4096 * ((4607 - p.val) / 4096)) := by
  show IntOp.addi (slot _) (IntOp.muli (splat 4096#32 _) (laps _)) = _
  rw [slot_apply, splat_apply, laps_apply]
  have hp := p.isLt
  show BitVec.ofNat 32 p.val + 4096#32 * BitVec.ofNat 32 ((4607 - p.val) / 4096) = _
  rw [mul_4096_ofNat _ (by omega), add_ofNat]

/-- The first 3584 turns are the slots from 512 on. -/
theorem order_apply_left (p : Fin 4096) (hp : p.val < 3584) : order (Shape.Idx.ofFin p) = BitVec.ofNat 32 (p.val + 512) := by
  unfold order
  rw [concatenate_pair_apply_left (t := S4096) (s₁ := S3584) (s₂ := S512) (0 : Fin 1) _ _ concatenates_S3584_S512_S4096_d0 (Shape.Idx.ofFin p) rfl
    (Shape.Idx.ofFin (⟨p.val, hp⟩ : Fin 3584)) (fun b => by have : b = 0 := Subsingleton.elim _ _; subst this; rfl)]
  show IntOp.addi (broadcastInDim S3584 ![] bcast_S_S3584 (constantI S_ 32 512#32) _) (iotaInDim S3584 32 0 _) = _
  rw [bcast_scalar bcast_S_S3584 (by decide)]
  show 512#32 + BitVec.ofNat 32 p.val = _
  rw [show (512#32 : BitVec 32) = BitVec.ofNat 32 512 from rfl, add_ofNat, Nat.add_comm]

/-- The last 512 turns are the slots from 0 on. -/
theorem order_apply_right (p : Fin 4096) (hp : 3584 ≤ p.val) : order (Shape.Idx.ofFin p) = BitVec.ofNat 32 (p.val - 3584) := by
  unfold order
  have hlt : p.val - 3584 < 512 := by have := p.isLt; omega
  rw [concatenate_pair_apply_right (t := S4096) (s₁ := S3584) (s₂ := S512) (0 : Fin 1) _ _ concatenates_S3584_S512_S4096_d0 (Shape.Idx.ofFin p) rfl rfl
    (Shape.Idx.ofFin (⟨p.val - 3584, hlt⟩ : Fin 512))
    (fun b hb => absurd (Subsingleton.elim _ _) hb)
    (by show (p.val - 3584) + 3584 = p.val; omega)]
  rfl

/-- No turn is negative and every one is a slot: the wrap leaves the turns as they are. -/
theorem wrapped_apply (x : IVec S4096 32) (n : BitVec 32) (i : S4096.Idx) (hx : (x i).toNat < 2 ^ 31) : wrapped x n i = x i := by
  show Scalar.select (IntOp.cmpi .slt (x i) (splat 0#32 i)) (addi x (splat n) i) (x i) = _
  rw [splat_apply, not_slt_zero _ hx]
  show (if (0#1 : BitVec 1) = 1 then _ else _) = _
  rw [if_neg (by decide)]

theorem column_apply (x : IVec S4096 32) (p : Fin 4096) : column x (ixP p) = x (Shape.Idx.ofFin p) :=
  bcast_col1 bcast_S4096_S4096x1_0 x p

/-- The slot whose turn it is at position `p`. -/
def turn (p : Fin 4096) : Fin 4096 :=
  if h : p.val < 3584 then ⟨p.val + 512, by omega⟩ else ⟨p.val - 3584, by have := p.isLt; omega⟩

theorem order_apply (p : Fin 4096) : order (Shape.Idx.ofFin p) = BitVec.ofNat 32 (turn p).val := by
  unfold turn
  split
  · next h => exact order_apply_left p h
  · next h => exact order_apply_right p (by omega)

/-- The token at each position of the caches: the last writer of the slot whose turn it is, which is `p + 512`. -/
theorem gatherIdx_apply (p : Fin 4096) : gatherIdx (Shape.Idx.ofFin p) = BitVec.ofNat 32 (p.val + 512) := by
  unfold gatherIdx
  rw [gather_take gather_S4096_S4096x1_S4096_n_0_n_n_0_1_1 rfl rfl rfl rfl lastWriter _ p (by decide)]
  have hturn : (turn p).val < 4096 := (turn p).isLt
  have hword : column (wrapped order 4096#32) (ixP p) = BitVec.ofNat 32 (turn p).val := by
    rw [column_apply, wrapped_apply _ _ _ (by rw [order_apply, BitVec.toNat_ofNat]; omega), order_apply]
  have hk : (⟨min (column (wrapped order 4096#32) (ixP p)).toInt.toNat (4096 - 1), by omega⟩ : Fin 4096) = turn p := by
    apply Fin.ext
    show min (column (wrapped order 4096#32) (ixP p)).toInt.toNat (4096 - 1) = (turn p).val
    rw [hword, toInt_ofNat_small _ (by omega)]
    simp only [Int.toNat_natCast]
    omega
  rw [hk, lastWriter_apply]
  congr 1
  unfold turn
  have hp := p.isLt
  split <;> simp only [] <;> omega

/-- The index column of the row gathers: position `p` holds `p + 512`. -/
theorem tokenIdx_apply (p : Fin 4096) : tokenIdx (ixP p) = BitVec.ofNat 32 (p.val + 512) := by
  unfold tokenIdx
  have hp := p.isLt
  rw [column_apply, wrapped_apply _ _ _ (by rw [gatherIdx_apply, BitVec.toNat_ofNat]; omega), gatherIdx_apply]

end Cert.ReferenceIdeal.Index

end
-- ==== Proof.LibRowGather4.lean ====
import Idealize.ShloMosaic.Lib.ValueIdx
import Idealize.ShloMosaic.Lib.StableHlo.Predicate

/-! # Rows of a rank-4 array taken along its second axis

jnp's `x[:, idx]` over an array `x` of shape [A, N, C, D] and a vector `idx` of `n` positions prints as a
`stablehlo.gather` whose start indices are the [n, 1] column of the positions: the second operand axis is collapsed
and start-indexed, the other three are offset axes carried whole (slice sizes [A, 1, C, D]), and there is no batching
axis. This file reads that gather at one element: result entry `(a, r, c, d)` is the operand at
`(a, k, c, d)`, where `k` is position `r` of the column read as a signed word and clamped into `[0, N − 1]`
(StableHLO's clamp of a start index so that the slice fits). Stated for any extents. -/

namespace Idealize.ShloMosaic.RowGather4

open Idealize.ShloMosaic Idealize.ShloMosaic.StableHlo.Predicate

variable {α : Type}

/-- The dimension numbers of `x[:, idx]` for `x : [A, N, C, D]` and `n` positions given as an [n, 1] column. -/
abbrev rowsDims (A N C D n : Nat)
    (wf : GatherDims.WF ⟨4, ![A, N, C, D]⟩ ⟨2, ![n, 1]⟩ ⟨4, ![A, n, C, D]⟩ [0, 2, 3] [1] [] [1] [] 1 ![A, 1, C, D]) :
    GatherDims ⟨4, ![A, N, C, D]⟩ ⟨2, ![n, 1]⟩ ⟨4, ![A, n, C, D]⟩ where
  offsetDims := [0, 2, 3]
  collapsedSliceDims := [1]
  operandBatchingDims := []
  startIndicesBatchingDims := []
  startIndexMap := [1]
  indexVectorDim := 1
  sliceSizes := ![A, 1, C, D]
  wf := wf

section Coordinates

variable {A N C D n w : Nat}
  (wf : GatherDims.WF ⟨4, ![A, N, C, D]⟩ ⟨2, ![n, 1]⟩ ⟨4, ![A, n, C, D]⟩ [0, 2, 3] [1] [] [1] [] 1 ![A, 1, C, D])
  (idx : IVec ⟨2, ![n, 1]⟩ w) (y : (⟨4, ![A, n, C, D]⟩ : Shape).Idx)

/-- On the first axis (an offset axis, not start-indexed) the operand index is the result's coordinate. -/
theorem coord0 : ((rowsDims A N C D n wf).operandIdx y idx (0 : Fin 4)).val = (y 0).val := by
  show (rowsDims A N C D n wf).start y idx 0 + (rowsDims A N C D n wf).batchCoord y 0 + (rowsDims A N C D n wf).offCoord y 0 = _
  rw [GatherDims.batchCoord_eq_zero _ _ _ List.not_mem_nil]
  unfold GatherDims.start
  rw [dif_neg (by decide : (0 : Fin 4) ∉ ([1] : List (Fin 4))), Nat.add_zero, Nat.zero_add]
  rfl

/-- Likewise on the third axis. -/
theorem coord2 : ((rowsDims A N C D n wf).operandIdx y idx (2 : Fin 4)).val = (y 2).val := by
  show (rowsDims A N C D n wf).start y idx 2 + (rowsDims A N C D n wf).batchCoord y 2 + (rowsDims A N C D n wf).offCoord y 2 = _
  rw [GatherDims.batchCoord_eq_zero _ _ _ List.not_mem_nil]
  unfold GatherDims.start
  rw [dif_neg (by decide : (2 : Fin 4) ∉ ([1] : List (Fin 4))), Nat.add_zero, Nat.zero_add]
  rfl

/-- Likewise on the fourth axis. -/
theorem coord3 : ((rowsDims A N C D n wf).operandIdx y idx (3 : Fin 4)).val = (y 3).val := by
  show (rowsDims A N C D n wf).start y idx 3 + (rowsDims A N C D n wf).batchCoord y 3 + (rowsDims A N C D n wf).offCoord y 3 = _
  rw [GatherDims.batchCoord_eq_zero _ _ _ List.not_mem_nil]
  unfold GatherDims.start
  rw [dif_neg (by decide : (3 : Fin 4) ∉ ([1] : List (Fin 4))), Nat.add_zero, Nat.zero_add]
  rfl

/-- On the second axis (collapsed: no offset; start-indexed) the operand index is the start: the column's word at the
    result's second coordinate, read signed and clamped to the last row. -/
theorem coord1 : ((rowsDims A N C D n wf).operandIdx y idx (1 : Fin 4)).val
    = min (idx (ixP (⟨(y 1).val, (y 1).isLt⟩ : Fin n))).toInt.toNat (N - 1) := by
  show (rowsDims A N C D n wf).start y idx 1 + (rowsDims A N C D n wf).batchCoord y 1 + (rowsDims A N C D n wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 4) ∈ (rowsDims A N C D n wf).startIndexMap from List.mem_singleton.mpr rfl)]
  have hsi : (rowsDims A N C D n wf).siIdx y ⟨List.idxOf (1 : Fin 4) (rowsDims A N C D n wf).startIndexMap,
      List.idxOf_lt_length_iff.2 (List.mem_singleton.mpr rfl)⟩ = ixP (⟨(y 1).val, (y 1).isLt⟩ : Fin n) := by
    funext b; refine Fin.ext ?_
    match b with
    | ⟨0, _⟩ => rfl
    | ⟨1, _⟩ => rfl
  rw [hsi]
  rfl

end Coordinates

/-- THE ROW GATHER READ AT AN ELEMENT: entry `y` of `x[:, idx]` is `x` at `y`'s coordinates with the second one
    replaced by the column's word there, read signed and clamped into `[0, N − 1]`. -/
theorem gather_rows_apply {A N C D n w : Nat} (hN : 0 < N)
    (wf : GatherDims.WF ⟨4, ![A, N, C, D]⟩ ⟨2, ![n, 1]⟩ ⟨4, ![A, n, C, D]⟩ [0, 2, 3] [1] [] [1] [] 1 ![A, 1, C, D])
    (x : (⟨4, ![A, N, C, D]⟩ : Shape).Idx → α) (idx : IVec ⟨2, ![n, 1]⟩ w) (y : (⟨4, ![A, n, C, D]⟩ : Shape).Idx) :
    Host.gather (rowsDims A N C D n wf) x idx y
      = x (ValueIdx.ix4 (⟨(y 0).val, (y 0).isLt⟩ : Fin A) (⟨min (idx (ixP (⟨(y 1).val, (y 1).isLt⟩ : Fin n))).toInt.toNat (N - 1), by omega⟩ : Fin N)
            (⟨(y 2).val, (y 2).isLt⟩ : Fin C) (⟨(y 3).val, (y 3).isLt⟩ : Fin D)) := by
  unfold Host.gather
  congr 1
  funext a
  refine Fin.ext ?_
  match a with
  | ⟨0, _⟩ => exact coord0 wf idx y
  | ⟨1, _⟩ => exact coord1 wf idx y
  | ⟨2, _⟩ => exact coord2 wf idx y
  | ⟨3, _⟩ => exact coord3 wf idx y

end Idealize.ShloMosaic.RowGather4
-- ==== Proof.RefValue.lean ====
/-
  The reference's two results as whole-array functions of the arguments.

  Each result is the sequence's rows gathered at the index column, and position `p` of that column holds the word
  `p + 512`, which is a row of the sequence (`p + 512 ≤ 4607`): read signed it is itself, and the gather's clamp to
  the last row leaves it alone. So entry `(b, p, h, d)` of a result is entry `(b, p + 512, h, d)` of its
  sequence — the last 4096 tokens, in order.
-/
import proofs.«130519_j45861660787372_1_alg».proof.Proof.RefRun
import proofs.«130519_j45861660787372_1_alg».proof.Proof.IndexWords
import proofs.«130519_j45861660787372_1_alg».proof.Proof.LibRowGather4
import proofs.«130519_j45861660787372_1_alg».proof.Proof.Window

noncomputable section

namespace Cert.ReferenceIdeal.Rows

open Cert.ReferenceIdeal Cert.ReferenceIdeal.Gen Idealize.ShloMosaic Idealize.ShloMosaic.TcCoe Idealize.SL.Sem
open Idealize.ShloMosaic.StableHlo.Predicate Idealize.ShloMosaic.RowGather4
open Cert.ReferenceIdeal.Index Cert.ReferenceIdeal.Straight Cert.Window

variable {F : FTy → Type} [FloatOps F]

/-- The rows of a sequence at the index column are its last 4096 tokens. -/
theorem rowGather_eq (x : S8x4608x8x128.Idx → Elt F .f32) : rowGather (F := F) x tokenIdx = lastTokens x := by
  funext y
  show Host.gather (rowsDims 8 4608 8 128 4096 gather_S8x4608x8x128_S4096x1_S8x4096x8x128_023_1_n_n_1_1_818128_wf) x tokenIdx y = _
  rw [gather_rows_apply (by decide), lastTokens_apply]
  congr 1
  funext a
  apply Fin.ext
  have h1 : (y 1).val < 4096 := (y 1).isLt
  match a with
  | ⟨0, _⟩ => rfl
  | ⟨1, _⟩ =>
    show min (tokenIdx (ixP (⟨(y 1).val, (y 1).isLt⟩ : Fin 4096))).toInt.toNat (4608 - 1) = (y 1).val + 512
    rw [tokenIdx_apply, toInt_ofNat_small _ (by show (y 1).val + 512 < 2 ^ 31; omega)]
    simp only [Int.toNat_natCast]
    omega
  | ⟨2, _⟩ => rfl
  | ⟨3, _⟩ => rfl

/-- Every weakly fair execution of the reference terminates with both caches at the last 4096 tokens of their
    sequences and the sequences unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = lastTokens (m ((c.tc : Thread nD τ).loc main_arg0))
      ∧ r.2.mem ((c.tc : Thread nD τ).loc main_v32) = lastTokens (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (rowGather_eq _), (h c).2.1.trans (rowGather_eq _), (h c).2.2.1, (h c).2.2.2⟩)
    (Cert.ReferenceIdeal.Straight.run m ρ)

end Cert.ReferenceIdeal.Rows

end
-- ==== Proof.lean ====
/-
  A sliding-window cache, two ways.

  The kernel copies, block by block, tokens 512 … 4607 of the key and value sequences into the two caches: a grid
  of 32 points, each moving one block of 128 tokens from block `t + 4` of a sequence to block `t` of its cache.
  The reference simulates the ring buffer with index arithmetic — the last writer of every slot, the slots in
  chronological order, one gather through both — and then gathers the sequences' rows at the resulting positions.
  Both end with each cache at the SAME function of its sequence, `lastTokens`: entry `(b, r, h, d)` is entry
  `(b, r + 512, h, d)`. No arithmetic is done on the floats, so the precondition is never opened.

  The kernel's side reads the generated blockwise value leg up to whole arrays (the 32 output blocks tile each
  cache); the reference's side writes its program out as a straight line of host operations, reads the two results
  as row gathers at one index column, and evaluates that column's words: position `p` holds `p + 512`.
-/
import proofs.«130519_j45861660787372_1_alg».proof.Defs
import proofs.«130519_j45861660787372_1_alg».proof.Proof.Gen.Kernel
import proofs.«130519_j45861660787372_1_alg».proof.Proof.Gen.Kernel.Frame
import proofs.«130519_j45861660787372_1_alg».proof.Proof.Gen.KernelIdeal
import proofs.«130519_j45861660787372_1_alg».proof.Proof.Gen.KernelIdeal.Frame
import proofs.«130519_j45861660787372_1_alg».proof.Proof.Gen.ReferenceIdeal
import proofs.«130519_j45861660787372_1_alg».proof.Proof.Gen.Pre_finite_inputs
import proofs.«130519_j45861660787372_1_alg».proof.Proof.KernelValue
import proofs.«130519_j45861660787372_1_alg».proof.Proof.RefValue

noncomputable section

namespace Cert.Proof

open Idealize.ShloMosaic Idealize.ShloMosaic.TcCoe Idealize.SL.Sem Cert.Window

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the results dropped. -/
theorem frame_reference : Cert.frame_ReferenceIdeal := fun m ρ _ =>
  (θ_run Cert.ReferenceIdeal.defs _ _).mono (fun _ h c => ⟨(h c).2.2.1, (h c).2.2.2⟩) (Cert.ReferenceIdeal.Rows.run (F := Ideal) m ρ)

/-- From memories that agree on the two sequences, both programs end with each cache at the last 4096 tokens of
    its sequence. -/
theorem algebraic : Cert.algebraic_KernelIdeal_ReferenceIdeal := by
  intro m ρ m' ρ' _ hagree
  refine ⟨fun c => lastTokens (m ((c.tc : Thread Cert.KernelIdeal.nD Cert.KernelIdeal.τ).loc Cert.KernelIdeal.main_arg0)),
    fun c => lastTokens (m ((c.tc : Thread Cert.KernelIdeal.nD Cert.KernelIdeal.τ).loc Cert.KernelIdeal.main_arg1)),
    Cert.KernelIdeal.Copied.run (F := Ideal) m ρ, ?_⟩
  refine (θ_run Cert.ReferenceIdeal.defs _ _).mono (fun _ h c => ⟨?_, ?_, (h c).2.2.1, (h c).2.2.2⟩)
    (Cert.ReferenceIdeal.Rows.run (F := Ideal) m' ρ')
  · rw [(h c).1, (hagree c).1]
  · rw [(h c).2.1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
